-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x131072x64 : Shape := ⟨3, ![8, 131072, 64]⟩
abbrev S8x256 : Shape := ⟨2, ![8, 256]⟩
abbrev S64x64 : Shape := ⟨2, ![64, 64]⟩
abbrev S64 : Shape := ⟨1, ![64]⟩
abbrev S64x256 : Shape := ⟨2, ![64, 256]⟩
abbrev S_ : Shape := ⟨0, ![]⟩

class Facts : Prop where
  bcast_S_S8x131072x64 : S_.BroadcastsInDim S8x131072x64 (![] : Fin 0 → Fin S8x131072x64.rank)
  reducesTo_S8x131072x64_S_d0_1_2 : S8x131072x64.ReducesTo [0, 1, 2] S_
  h_S_ : 0 < S_.numel
  bcast_S_S8x256 : S_.BroadcastsInDim S8x256 (![] : Fin 0 → Fin S8x256.rank)
  reducesTo_S8x256_S_d0_1 : S8x256.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x256 : S_.BroadcastsInDim S64x256 (![] : Fin 0 → Fin S64x256.rank)
  reducesTo_S64x256_S_d0_1 : S64x256.ReducesTo [0, 1] S_

variable [Facts]

def fn_part1 {F : FTy → Type} [FloatOps F] (main_arg4 : FVec F S64x256 .f32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x256 .f32 := Host.absf main_arg4
  let main_cst_6 : FVec F S_ .f32 := constant S_ .f32 0x7F800000#32
  let main_v20 : FVec F S64x256 .f32 := broadcastInDim S64x256 ![] bcast_S_S64x256 main_cst_6
  let main_v21 : IVec S64x256 1 := cmpf .olt main_v19 main_v20
  let main_c_7 : IVec S_ 1 := constantI S_ 1 1#1
  let main_v22 : IVec S_ 1 := (fun x v => Host.reduce IntOp.andi x v reducesTo_S64x256_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S8x131072x64 .f32) (main_arg1 : FVec F S8x256 .f32) (main_arg2 : FVec F S64x64 .f32) (main_arg3 : FVec F S64 .f32) (main_arg4 : FVec F S64x256 .f32) (main_arg5 : FVec F S64 .f32) : IVec S_ 1 :=
  let main_v0 : FVec F S8x131072x64 .f32 := Host.absf main_arg0
  let main_cst : FVec F S_ .f32 := constant S_ .f32 0x7F800000#32
  let main_v1 : FVec F S8x131072x64 .f32 := broadcastInDim S8x131072x64 ![] bcast_S_S8x131072x64 main_cst
  let main_v2 : IVec S8x131072x64 1 := cmpf .olt main_v0 main_v1
  let main_c : IVec S_ 1 := constantI S_ 1 1#1
  let main_v3 : IVec S_ 1 := (fun x v => Host.reduce IntOp.andi x v reducesTo_S8x131072x64_S_d0_1_2 h_S_) main_v2 main_c
  let main_v4 : FVec F S8x256 .f32 := Host.absf main_arg1
  let main_cst_0 : FVec F S_ .f32 := constant S_ .f32 0x7F800000#32
  let main_v5 : FVec F S8x256 .f32 := broadcastInDim S8x256 ![] bcast_S_S8x256 main_cst_0
  let main_v6 : IVec S8x256 1 := cmpf .olt main_v4 main_v5
  let main_c_1 : IVec S_ 1 := constantI S_ 1 1#1
  let main_v7 : IVec S_ 1 := (fun x v => Host.reduce IntOp.andi x v reducesTo_S8x256_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S8x131072x64 : Shape := ⟨3, ![8, 131072, 64]⟩
abbrev S8x256 : Shape := ⟨2, ![8, 256]⟩
abbrev S64x64 : Shape := ⟨2, ![64, 64]⟩
abbrev S64 : Shape := ⟨1, ![64]⟩
abbrev S64x256 : Shape := ⟨2, ![64, 256]⟩
abbrev S_ : Shape := ⟨0, ![]⟩
abbrev S256x64 : Shape := ⟨2, ![256, 64]⟩
abbrev S8x64 : Shape := ⟨2, ![8, 64]⟩
abbrev S1x64 : Shape := ⟨2, ![1, 64]⟩
abbrev S1x64x64 : Shape := ⟨3, ![1, 64, 64]⟩
abbrev S8x1x64 : Shape := ⟨3, ![8, 1, 64]⟩
abbrev S8x64x64 : Shape := ⟨3, ![8, 64, 64]⟩
abbrev S8x64x1 : Shape := ⟨3, ![8, 64, 1]⟩
abbrev S1x16384x64 : Shape := ⟨3, ![1, 16384, 64]⟩
abbrev S16384x64 : Shape := ⟨2, ![16384, 64]⟩

abbrev nBuf : Space → Nat
  | .hbm => 37
  | .vmem => 7
  | .smem => 0
  | _ => 0

abbrev bufTy : (tb : Table) → Fin (tcTables nBuf tb) → BufTy
  | .hbm, ⟨0, _⟩ => ⟨S8x131072x64, .f32⟩
  | .hbm, ⟨1, _⟩ => ⟨S8x256, .f32⟩
  | .hbm, ⟨2, _⟩ => ⟨S64x64, .f32⟩
  | .hbm, ⟨3, _⟩ => ⟨S64, .f32⟩
  | .hbm, ⟨4, _⟩ => ⟨S64x256, .f32⟩
  | .hbm, ⟨5, _⟩ => ⟨S64, .f32⟩
  | .hbm, ⟨6, _⟩ => ⟨S_, .f32⟩
  | .hbm, ⟨7, _⟩ => ⟨S64x256, .f32⟩
  | .hbm, ⟨8, _⟩ => ⟨S64x256, .f32⟩
  | .hbm, ⟨9, _⟩ => ⟨S256x64, .f32⟩
  | .hbm, ⟨10, _⟩ => ⟨S8x64, .f32⟩
  | .hbm, ⟨11, _⟩ => ⟨S1x64, .f32⟩
  | .hbm, ⟨12, _⟩ => ⟨S8x64, .f32⟩
  | .hbm, ⟨13, _⟩ => ⟨S8x64, .f32⟩
  | .hbm, ⟨14, _⟩ => ⟨S_, .f32⟩
  | .hbm, ⟨15, _⟩ => ⟨S8x64, .f32⟩
  | .hbm, ⟨16, _⟩ => ⟨S8x64, .f32⟩
  | .hbm, ⟨17, _⟩ => ⟨S1x64x64, .f32⟩
  | .hbm, ⟨18, _⟩ => ⟨S_, .f32⟩
  | .hbm, ⟨19, _⟩ => ⟨S1x64x64, .f32⟩
  | .hbm, ⟨20, _⟩ => ⟨S1x64x64, .f32⟩
  | .hbm, ⟨21, _⟩ => ⟨S8x1x64, .f32⟩
  | .hbm, ⟨22, _⟩ => ⟨S8x64x64, .f32⟩
  | .hbm, ⟨23, _⟩ => ⟨S8x64x64, .f32⟩
  | .hbm, ⟨24, _⟩ => ⟨S8x64x64, .f32⟩
  | .hbm, ⟨25, _⟩ => ⟨S8x64x64, .f32⟩
  | .hbm, ⟨26, _⟩ => ⟨S_, .f32⟩
  | .hbm, ⟨27, _⟩ => ⟨S8x64, .f32⟩
  | .hbm, ⟨28, _⟩ => ⟨S_, .f32⟩
  | .hbm, ⟨29, _⟩ => ⟨S8x64, .f32⟩
  | .hbm, ⟨30, _⟩ => ⟨S8x64, .f32⟩
  | .hbm, ⟨31, _⟩ => ⟨S8x64, .f32⟩
  | .hbm, ⟨32, _⟩ => ⟨S8x64x1, .f32⟩
  | .hbm, ⟨33, _⟩ => ⟨S8x64x64, .f32⟩
  | .hbm, ⟨34, _⟩ => ⟨S8x64x64, .f32⟩
  | .hbm, ⟨35, _⟩ => ⟨S1x64, .f32⟩
  | .hbm, ⟨36, _⟩ => ⟨S8x131072x64, .f32⟩
  | .local _ .vmem, ⟨0, _⟩ => ⟨S1x16384x64, .f32⟩
  | .local _ .vmem, ⟨1, _⟩ => ⟨S1x16384x64, .f32⟩
  | .local _ .vmem, ⟨2, _⟩ => ⟨S1x64x64, .f32⟩
  | .local _ .vmem, ⟨3, _⟩ => ⟨S1x64x64, .f32⟩
  | .local _ .vmem, ⟨4, _⟩ => ⟨S1x64, .f32⟩
  | .local _ .vmem, ⟨5, _⟩ => ⟨S1x16384x64, .f32⟩
  | .local _ .vmem, ⟨6, _⟩ => ⟨S1x16384x64, .f32⟩
  | _, _ => ⟨S8x131072x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16384x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x16384x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S64x256 : S_.BroadcastsInDim S64x256 (![] : Fin 0 → Fin S64x256.rank)
  transposes_S64x256_S256x64_1_0 : S64x256.Transposes [1, 0] S256x64
  bcast_S64_S1x64_1 : S64.BroadcastsInDim S1x64 (![1] : Fin 1 → Fin S1x64.rank)
  bcast_S1x64_S8x64_0_1 : S1x64.BroadcastsInDim S8x64 (![0, 1] : Fin 2 → Fin S8x64.rank)
  bcast_S_S8x64 : S_.BroadcastsInDim S8x64 (![] : Fin 0 → Fin S8x64.rank)
  bcast_S64x64_S1x64x64_1_2 : S64x64.BroadcastsInDim S1x64x64 (![1, 2] : Fin 2 → Fin S1x64x64.rank)
  bcast_S_S1x64x64 : S_.BroadcastsInDim S1x64x64 (![] : Fin 0 → Fin S1x64x64.rank)
  bcast_S8x64_S8x1x64_0_2 : S8x64.BroadcastsInDim S8x1x64 (![0, 2] : Fin 2 → Fin S8x1x64.rank)
  bcast_S1x64x64_S8x64x64_0_1_2 : S1x64x64.BroadcastsInDim S8x64x64 (![0, 1, 2] : Fin 3 → Fin S8x64x64.rank)
  bcast_S8x1x64_S8x64x64_0_1_2 : S8x1x64.BroadcastsInDim S8x64x64 (![0, 1, 2] : Fin 3 → Fin S8x64x64.rank)
  reducesTo_S8x64x64_S8x64_d2 : S8x64x64.ReducesTo [2] S8x64
  h_S_ : 0 < S_.numel
  bcast_S8x64_S8x64x1_0_1 : S8x64.BroadcastsInDim S8x64x1 (![0, 1] : Fin 2 → Fin S8x64x1.rank)
  bcast_S8x64x1_S8x64x64_0_1_2 : S8x64x1.BroadcastsInDim S8x64x64 (![0, 1, 2] : Fin 3 → Fin S8x64x64.rank)
  shapeCasts_S64_S1x64 : S64.ShapeCasts S1x64
  inb_S1x16384x64_S1x16384x64_0_0_0 : ∀ a, (![0, 0, 0] : Fin 3 → Nat) a + S1x16384x64.size a ≤ S1x16384x64.size a
  h_S1x16384x64 : 0 < S1x16384x64.numel
  shapeCasts_S1x16384x64_S16384x64 : S1x16384x64.ShapeCasts S16384x64
  bitsLt_bf16_f32 : FTy.bits .bf16 < FTy.bits .f32
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S16384x64 : S1x64.Broadcasts S16384x64
  shapeCasts_S16384x64_S1x16384x64 : S16384x64.ShapeCasts S1x16384x64
  dot_S8x256_S256x64_S8x64_1_0_0_1_n_n_wf : DotDims.WF S8x256 S256x64 S8x64 [1] [0] [0] [1] [] []
  dot_S16384x64_S64x64_S16384x64_1_1_0_0_n_n_wf : DotDims.WF S16384x64 S64x64 S16384x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16384x64.size a ≤ S8x131072x64.size a
  hwx0_0 : ∀ i : grid0.Coords, EltTy.bits .f32 = 32 ∨ (Rect.block (s := S8x131072x64) S1x16384x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S8x64x64.size a
  hwx0_1 : ∀ i : grid0.Coords, EltTy.bits .f32 = 32 ∨ (Rect.block (s := S8x64x64) S1x64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16384x64.size a ≤ S8x131072x64.size a
  hwx0_3 : ∀ i : grid0.Coords, EltTy.bits .f32 = 32 ∨ (Rect.block (s := S8x131072x64) S1x16384x64.size (cc0_transform_3 i) (hinb0_3 i)).WholeWords (EltTy.packing .f32)

variable [Facts₀]

def dot_S8x256_S256x64_S8x64_1_0_0_1_n_n : DotDims S8x256 S256x64 S8x64 where
  lhsContracting := [1]
  rhsContracting := [0]
  lhsNonContracting := [0]
  rhsNonContracting := [1]
  lhsBatch := []
  rhsBatch := []
  wf := dot_S8x256_S256x64_S8x64_1_0_0_1_n_n_wf
def dot_S16384x64_S64x64_S16384x64_1_1_0_0_n_n : DotDims S16384x64 S64x64 S16384x64 where
  lhsContracting := [1]
  rhsContracting := [1]
  lhsNonContracting := [0]
  rhsNonContracting := [0]
  lhsBatch := []
  rhsBatch := []
  wf := dot_S16384x64_S64x64_S16384x64_1_1_0_0_n_n_wf

abbrev win0_0 : Pipeline.Window sig grid0 :=
  Pipeline.Window.ofSpec (Memref.whole main_arg0) S1x16384x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x16384x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x131072x64 : Shape := ⟨3, ![8, 131072, 64]⟩
abbrev S8x256 : Shape := ⟨2, ![8, 256]⟩
abbrev S64x64 : Shape := ⟨2, ![64, 64]⟩
abbrev S64 : Shape := ⟨1, ![64]⟩
abbrev S64x256 : Shape := ⟨2, ![64, 256]⟩
abbrev S_ : Shape := ⟨0, ![]⟩
abbrev S256x64 : Shape := ⟨2, ![256, 64]⟩
abbrev S8x64 : Shape := ⟨2, ![8, 64]⟩
abbrev S1x64 : Shape := ⟨2, ![1, 64]⟩
abbrev S1x64x64 : Shape := ⟨3, ![1, 64, 64]⟩
abbrev S8x1x64 : Shape := ⟨3, ![8, 1, 64]⟩
abbrev S8x64x64 : Shape := ⟨3, ![8, 64, 64]⟩
abbrev S8x64x1 : Shape := ⟨3, ![8, 64, 1]⟩
abbrev S1x1x64 : Shape := ⟨3, ![1, 1, 64]⟩

abbrev nBuf : Space → Nat
  | .hbm => 39
  | .vmem => 0
  | .smem => 0
  | _ => 0

abbrev bufTy : (tb : Table) → Fin (tcTables nBuf tb) → BufTy
  | .hbm, ⟨0, _⟩ => ⟨S8x131072x64, .f32⟩
  | .hbm, ⟨1, _⟩ => ⟨S8x256, .f32⟩
  | .hbm, ⟨2, _⟩ => ⟨S64x64, .f32⟩
  | .hbm, ⟨3, _⟩ => ⟨S64, .f32⟩
  | .hbm, ⟨4, _⟩ => ⟨S64x256, .f32⟩
  | .hbm, ⟨5, _⟩ => ⟨S64, .f32⟩
  | .hbm, ⟨6, _⟩ => ⟨S_, .f32⟩
  | .hbm, ⟨7, _⟩ => ⟨S64x256, .f32⟩
  | .hbm, ⟨8, _⟩ => ⟨S64x256, .f32⟩
  | .hbm, ⟨9, _⟩ => ⟨S256x64, .f32⟩
  | .hbm, ⟨10, _⟩ => ⟨S8x64, .f32⟩
  | .hbm, ⟨11, _⟩ => ⟨S1x64, .f32⟩
  | .hbm, ⟨12, _⟩ => ⟨S8x64, .f32⟩
  | .hbm, ⟨13, _⟩ => ⟨S8x64, .f32⟩
  | .hbm, ⟨14, _⟩ => ⟨S_, .f32⟩
  | .hbm, ⟨15, _⟩ => ⟨S8x64, .f32⟩
  | .hbm, ⟨16, _⟩ => ⟨S8x64, .f32⟩
  | .hbm, ⟨17, _⟩ => ⟨S1x64x64, .f32⟩
  | .hbm, ⟨18, _⟩ => ⟨S_, .f32⟩
  | .hbm, ⟨19, _⟩ => ⟨S1x64x64, .f32⟩
  | .hbm, ⟨20, _⟩ => ⟨S1x64x64, .f32⟩
  | .hbm, ⟨21, _⟩ => ⟨S8x1x64, .f32⟩
  | .hbm, ⟨22, _⟩ => ⟨S8x64x64, .f32⟩
  | .hbm, ⟨23, _⟩ => ⟨S8x64x64, .f32⟩
  | .hbm, ⟨24, _⟩ => ⟨S8x64x64, .f32⟩
  | .hbm, ⟨25, _⟩ => ⟨S8x64x64, .f32⟩
  | .hbm, ⟨26, _⟩ => ⟨S_, .f32⟩
  | .hbm, ⟨27, _⟩ => ⟨S8x64, .f32⟩
  | .hbm, ⟨28, _⟩ => ⟨S_, .f32⟩
  | .hbm, ⟨29, _⟩ => ⟨S8x64, .f32⟩
  | .hbm, ⟨30, _⟩ => ⟨S8x64, .f32⟩
  | .hbm, ⟨31, _⟩ => ⟨S8x64, .f32⟩
  | .hbm, ⟨32, _⟩ => ⟨S8x64x1, .f32⟩
  | .hbm, ⟨33, _⟩ => ⟨S8x64x64, .f32⟩
  | .hbm, ⟨34, _⟩ => ⟨S8x64x64, .f32⟩
  | .hbm, ⟨35, _⟩ => ⟨S8x131072x64, .f32⟩
  | .hbm, ⟨36, _⟩ => ⟨S1x1x64, .f32⟩
  | .hbm, ⟨37, _⟩ => ⟨S8x131072x64, .f32⟩
  | .hbm, ⟨38, _⟩ => ⟨S8x131072x64, .f32⟩
  | _, _ => ⟨S8x131072x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  bcast_S_S64x256 : S_.BroadcastsInDim S64x256 (![] : Fin 0 → Fin S64x256.rank)
  transposes_S64x256_S256x64_1_0 : S64x256.Transposes [1, 0] S256x64
  bcast_S64_S1x64_1 : S64.BroadcastsInDim S1x64 (![1] : Fin 1 → Fin S1x64.rank)
  bcast_S1x64_S8x64_0_1 : S1x64.BroadcastsInDim S8x64 (![0, 1] : Fin 2 → Fin S8x64.rank)
  bcast_S_S8x64 : S_.BroadcastsInDim S8x64 (![] : Fin 0 → Fin S8x64.rank)
  bcast_S64x64_S1x64x64_1_2 : S64x64.BroadcastsInDim S1x64x64 (![1, 2] : Fin 2 → Fin S1x64x64.rank)
  bcast_S_S1x64x64 : S_.BroadcastsInDim S1x64x64 (![] : Fin 0 → Fin S1x64x64.rank)
  bcast_S8x64_S8x1x64_0_2 : S8x64.BroadcastsInDim S8x1x64 (![0, 2] : Fin 2 → Fin S8x1x64.rank)
  bcast_S1x64x64_S8x64x64_0_1_2 : S1x64x64.BroadcastsInDim S8x64x64 (![0, 1, 2] : Fin 3 → Fin S8x64x64.rank)
  bcast_S8x1x64_S8x64x64_0_1_2 : S8x1x64.BroadcastsInDim S8x64x64 (![0, 1, 2] : Fin 3 → Fin S8x64x64.rank)
  reducesTo_S8x64x64_S8x64_d2 : S8x64x64.ReducesTo [2] S8x64
  h_S_ : 0 < S_.numel
  bcast_S8x64_S8x64x1_0_1 : S8x64.BroadcastsInDim S8x64x1 (![0, 1] : Fin 2 → Fin S8x64x1.rank)
  bcast_S8x64x1_S8x64x64_0_1_2 : S8x64x1.BroadcastsInDim S8x64x64 (![0, 1, 2] : Fin 3 → Fin S8x64x64.rank)
  bcast_S64_S1x1x64_2 : S64.BroadcastsInDim S1x1x64 (![2] : Fin 1 → Fin S1x1x64.rank)
  bcast_S1x1x64_S8x131072x64_0_1_2 : S1x1x64.BroadcastsInDim S8x131072x64 (![0, 1, 2] : Fin 3 → Fin S8x131072x64.rank)
  dot_S8x256_S256x64_S8x64_1_0_0_1_n_n_wf : DotDims.WF S8x256 S256x64 S8x64 [1] [0] [0] [1] [] []
  dot_S8x131072x64_S8x64x64_S8x131072x64_2_2_1_1_0_0_wf : DotDims.WF S8x131072x64 S8x64x64 S8x131072x64 [2] [2] [1] [1] [0] [0]

variable [Facts₀]

def dot_S8x256_S256x64_S8x64_1_0_0_1_n_n : DotDims S8x256 S256x64 S8x64 where
  lhsContracting := [1]
  rhsContracting := [0]
  lhsNonContracting := [0]
  rhsNonContracting := [1]
  lhsBatch := []
  rhsBatch := []
  wf := dot_S8x256_S256x64_S8x64_1_0_0_1_n_n_wf
def dot_S8x131072x64_S8x64x64_S8x131072x64_2_2_1_1_0_0 : DotDims S8x131072x64 S8x64x64 S8x131072x64 where
  lhsContracting := [2]
  rhsContracting := [2]
  lhsNonContracting := [1]
  rhsNonContracting := [1]
  lhsBatch := [0]
  rhsBatch := [0]
  wf := dot_S8x131072x64_S8x64x64_S8x131072x64_2_2_1_1_0_0_wf

class Facts : Prop extends Facts₀ where

variable [Facts]
-- ==== Proof.PayloadAt.lean ====
/-
  What the kernel body stores, read at an index, on the extended reals.

  The body loads one block of points [1, 16384, 64], its sample's weight [1, 64, 64] and the bias as a row [1, 64];
  drops the unit axes; narrows points and weight to a shorter float format, which on the extended reals changes
  nothing; multiplies the points with the ROWS of the weight (both operands are contracted along their channel axis,
  so the product is x · wᵀ) into a zero accumulator; adds the bias row to every point; and puts the unit axis back.
  At (0, n, o) that is Σ_k x[0, n, k] · w[0, o, k] + bias[0, o].
-/
import proofs.«174549_j34445637714446_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyAt

open Cert.KernelIdeal Cert.KernelIdeal.Gen Idealize.ShloMosaic Idealize.ShloMosaic.ValueIdx

/-! ## The product's operand indices: rows of the points against rows of the weight -/

theorem lhs_row (i : S16384x64.Idx) (q : dot_S16384x64_S64x64_S16384x64_1_1_0_0_n_n.contr.Idx) :
    (dot_S16384x64_S64x64_S16384x64_1_1_0_0_n_n.lhsIdx i q 0).val = (i 0).val := by
  unfold DotDims.lhsIdx
  rw [dif_neg (show ¬(0 : Fin S16384x64.rank) ∈ dot_S16384x64_S64x64_S16384x64_1_1_0_0_n_n.lhsBatch by decide), dif_pos (show (0 : Fin S16384x64.rank) ∈ dot_S16384x64_S64x64_S16384x64_1_1_0_0_n_n.lhsNonContracting by decide)]
  rfl
theorem lhs_channel (i : S16384x64.Idx) (q : dot_S16384x64_S64x64_S16384x64_1_1_0_0_n_n.contr.Idx) :
    (dot_S16384x64_S64x64_S16384x64_1_1_0_0_n_n.lhsIdx i q 1).val = (q ⟨0, by decide⟩).val :=
  dot_S16384x64_S64x64_S16384x64_1_1_0_0_n_n.lhsIdx_val_of_single rfl i q
theorem rhs_row (i : S16384x64.Idx) (q : dot_S16384x64_S64x64_S16384x64_1_1_0_0_n_n.contr.Idx) :
    (dot_S16384x64_S64x64_S16384x64_1_1_0_0_n_n.rhsIdx i q 0).val = (i 1).val := by
  unfold DotDims.rhsIdx
  rw [dif_neg (show ¬(0 : Fin S64x64.rank) ∈ dot_S16384x64_S64x64_S16384x64_1_1_0_0_n_n.rhsBatch by decide), dif_pos (show (0 : Fin S64x64.rank) ∈ dot_S16384x64_S64x64_S16384x64_1_1_0_0_n_n.rhsNonContracting by decide)]
  rfl
theorem rhs_channel (i : S16384x64.Idx) (q : dot_S16384x64_S64x64_S16384x64_1_1_0_0_n_n.contr.Idx) :
    (dot_S16384x64_S64x64_S16384x64_1_1_0_0_n_n.rhsIdx i q 1).val = (q ⟨0, by decide⟩).val :=
  dot_S16384x64_S64x64_S16384x64_1_1_0_0_n_n.rhsIdx_val_of_single rfl i q

/-- The product into a zero accumulator, at (n, o): row n of the points against row o of the weight. -/
theorem rowsProduct_apply (x : FVec Ideal S16384x64 .bf16) (w : FVec Ideal S64x64 .bf16) (n : Fin 16384) (o : Fin 64) :
    matmul dot_S16384x64_S64x64_S16384x64_1_1_0_0_n_n none x w (constant (F := Ideal) S16384x64 .f32 0x00000000#32) (ix2 n o)
      = ∑ k : Fin 64, x (ix2 n k) * w (ix2 o k) := by
  show FloatOps.matmul dot_S16384x64_S64x64_S16384x64_1_1_0_0_n_n none x w (constant (F := Ideal) S16384x64 .f32 0x00000000#32) (ix2 n o) = _
  rw [Ideal.matmul_constant_zero_apply, ← Equiv.sum_comp (ValueIdx.contrEquiv1 dot_S16384x64_S64x64_S16384x64_1_1_0_0_n_n 64 rfl rfl).symm]
  refine Finset.sum_congr rfl fun k _ => ?_
  have hk := ValueIdx.contrEquiv1_symm_val dot_S16384x64_S64x64_S16384x64_1_1_0_0_n_n 64 rfl rfl k
  have el : dot_S16384x64_S64x64_S16384x64_1_1_0_0_n_n.lhsIdx (ix2 n o) ((ValueIdx.contrEquiv1 dot_S16384x64_S64x64_S16384x64_1_1_0_0_n_n 64 rfl rfl).symm k) = ix2 n k := funext fun a => Fin.ext (by
    match a with
    | ⟨0, _⟩ => exact lhs_row _ _
    | ⟨1, _⟩ => exact (lhs_channel _ _).trans hk)
  have er : dot_S16384x64_S64x64_S16384x64_1_1_0_0_n_n.rhsIdx (ix2 n o) ((ValueIdx.contrEquiv1 dot_S16384x64_S64x64_S16384x64_1_1_0_0_n_n 64 rfl rfl).symm k) = ix2 o k := funext fun a => Fin.ext (by
    match a with
    | ⟨0, _⟩ => exact rhs_row _ _
    | ⟨1, _⟩ => exact (rhs_channel _ _).trans hk)
  rw [el, er]

/-! ## The stored block at an index -/

/-- The body's one store, at (u, n, o) with u the unit axis: the point's row against the weight's row o, plus the bias. -/
theorem stored_apply (x0 : FVec Ideal S1x16384x64 .f32) (x1 : FVec Ideal S1x64x64 .f32) (x2 : FVec Ideal S1x64 .f32)
    (u : Fin 1) (n : Fin 16384) (o : Fin 64) :
    k0_pay1 (F := Ideal) x0 x1 x2 (ix3 u n o)
      = (∑ k : Fin 64, x0 (ix3 (0 : Fin 1) n k) * x1 (ix3 (0 : Fin 1) o k)) + x2 (ix2 (0 : Fin 1) o) := by
  unfold k0_pay1
  rw [shapeCast_ab_1ab_apply, addf_apply, rowsProduct_apply, shapeCast_self, broadcastTo_1b_ab_apply]
  simp only [truncf_apply, shapeCast_1ab_ab_apply]

end Cert.KernelIdeal.BodyAt

end
-- ==== Proof.KernelArray.lean ====
/-
  The kernel's result array after the run, as one function of the arrays the region is launched on.

  The grid has 8 × 8 points. Point t = (b, j) stages block (b, j) of the points — sample b, points
  16384·j … 16384·j + 16383 —, sample b's whole weight, and the bias row, and writes block (b, j) of the result.
  What it writes at (0, n, o) of its block is the point's row against row o of the sample's weight plus the bias
  (the body's store, read at an index); seen from the whole arrays that is the value of `atEntry` at
  (b, 16384·j + n, o). The 64 blocks tile the result, so the result array IS `atEntry`.
-/
import proofs.«174549_j34445637714446_1_alg».proof.Proof.Gen.KernelIdeal.Value
import proofs.«174549_j34445637714446_1_alg».proof.Proof.PayloadAt
import Idealize.ShloMosaic.Lib.Pipeline.Value
import Idealize.ShloMosaic.Lib.ValueIdx

noncomputable section

namespace Cert.KernelIdeal.Whole

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- The three arrays the region reads, as it finds them, at their literal shapes. -/
abbrev points (c : Dev nD) : FVec Ideal S8x131072x64 .f32 := V m c main_arg0
abbrev weight (c : Dev nD) : FVec Ideal S8x64x64 .f32 := V m c main_v23
abbrev biasRow (c : Dev nD) : FVec Ideal S1x64 .f32 := V m c main_v24

/-- Every point against the rows of its sample's weight, plus the bias row: over the arrays as launched. -/
def atEntry (c : Dev nD) : FVec Ideal S8x131072x64 .f32 :=
  fun i => (∑ k : Fin 64, points m c (ix3 (i 0) (i 1) k) * weight m c (ix3 (i 0) (i 2) k)) + biasRow m c (ix2 (0 : Fin 1) (i 2))

/-- The printed index maps over the grid: points and result move together, block (t / 8, t mod 8); the weight
    follows the sample only; the bias row does not move. -/
theorem index_maps : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val / 8 ∧ win0_3.index t (1 : Fin 3) = t.val % 8 ∧ win0_3.index t (2 : Fin 3) = 0 :=
  (by decide +kernel : ∀ t : Fin grid0.N, _)

/-- The store read over index variables of the block's literal shape. -/
theorem stored_at (x0 : FVec Ideal S1x16384x64 .f32) (x1 : FVec Ideal S1x64x64 .f32) (x2 : FVec Ideal S1x64 .f32) (j : S1x16384x64.Idx) :
    k0_pay1 (F := Ideal) x0 x1 x2 j
      = (∑ k : Fin 64, x0 (ix3 (0 : Fin 1) (j 1) k) * x1 (ix3 (0 : Fin 1) (j 2) k)) + x2 (ix2 (0 : Fin 1) (j 2)) := by
  obtain ⟨u, n, o, rfl⟩ : ∃ (u : Fin 1) (n : Fin 16384) (o : Fin 64), j = ix3 u n o := ⟨j 0, j 1, j 2, eq_ix3 j⟩
  exact BodyAt.stored_apply x0 x1 x2 u n o

/-- WHAT POINT t WRITES BACK is block t of `atEntry`. -/
theorem flushed_eq (c : Dev nD) (t : Fin cfg0.N) :
    (dats m 0 c).flushed 3 t = ((cfg0.win 3).blk t).view.read (Elt Ideal) (atEntry m c) := by
  rw [flushed3]
  unfold out0_3
  rw [View.canon_unit_zero zero3]
  simp only [View.ld_unit_zero (S := S1x16384x64) zero3, View.ld_unit_zero (S := S1x64x64) zero3, View.ld_unit_zero (S := S1x64) zero2]
  obtain ⟨e00, e01, e02, e10, e11, e12, e20, e21, q0, q1, q2⟩ := index_maps t
  funext j
  show k0_pay1 (F := Ideal) (iblk m c 0 t) (iblk m c 1 t) (iblk m c 2 t) j = atEntry m c (((cfg0.win 3).blk t).view.emb j)
  refine (stored_at (iblk m c 0 t) (iblk m c 1 t) (iblk m c 2 t) j).trans ?_
  have hj0 : (j 0).val < 1 := (j 0).isLt
  have hj1 : (j 1).val < 16384 := (j 1).isLt
  have hj2 : (j 2).val < 64 := (j 2).isLt
  -- the point's row k, in the whole array
  have hp : ∀ k : Fin 64, (iblk m c 0 t : FVec Ideal S1x16384x64 .f32) (ix3 (0 : Fin 1) (j 1) k)
      = points m c (ix3 ((((cfg0.win 3).blk t).view.emb j) 0) ((((cfg0.win 3).blk t).view.emb j) 1) k) := fun k => by
    show V m c main_arg0 (((cfg0.win 0).blk t).view.emb (ix3 (0 : Fin 1) (j 1) k)) = V m c main_arg0 _
    refine congrArg (V m c main_arg0) (funext fun a => Fin.ext ?_)
    match a with
    | ⟨0, _⟩ => show win0_0.index t (0 : Fin 3) * 1 + 1 * 0 = win0_3.index t (0 : Fin 3) * 1 + 1 * (j 0).val; omega
    | ⟨1, _⟩ => show win0_0.index t (1 : Fin 3) * 16384 + 1 * (j 1).val = win0_3.index t (1 : Fin 3) * 16384 + 1 * (j 1).val; omega
    | ⟨2, _⟩ => show win0_0.index t (2 : Fin 3) * 64 + 1 * k.val = k.val; omega
  -- the weight's row o, channel k, of the point's sample
  have hw : ∀ k : Fin 64, (iblk m c 1 t : FVec Ideal S1x64x64 .f32) (ix3 (0 : Fin 1) (j 2) k)
      = weight m c (ix3 ((((cfg0.win 3).blk t).view.emb j) 0) ((((cfg0.win 3).blk t).view.emb j) 2) k) := fun k => by
    show V m c main_v23 (((cfg0.win 1).blk t).view.emb (ix3 (0 : Fin 1) (j 2) k)) = V m c main_v23 _
    refine congrArg (V m c main_v23) (funext fun a => Fin.ext ?_)
    match a with
    | ⟨0, _⟩ => show win0_1.index t (0 : Fin 3) * 1 + 1 * 0 = win0_3.index t (0 : Fin 3) * 1 + 1 * (j 0).val; omega
    | ⟨1, _⟩ => show win0_1.index t (1 : Fin 3) * 64 + 1 * (j 2).val = win0_3.index t (2 : Fin 3) * 64 + 1 * (j 2).val; omega
    | ⟨2, _⟩ => show win0_1.index t (2 : Fin 3) * 64 + 1 * k.val = k.val; omega
  -- the bias of channel o
  have hb : (iblk m c 2 t : FVec Ideal S1x64 .f32) (ix2 (0 : Fin 1) (j 2))
      = biasRow m c (ix2 (0 : Fin 1) ((((cfg0.win 3).blk t).view.emb j) 2)) := by
    show V m c main_v24 (((cfg0.win 2).blk t).view.emb (ix2 (0 : Fin 1) (j 2))) = V m c main_v24 _
    refine congrArg (V m c main_v24) (funext fun a => Fin.ext ?_)
    match a with
    | ⟨0, _⟩ => show win0_2.index t (0 : Fin 2) * 1 + 1 * 0 = 0; omega
    | ⟨1, _⟩ => show win0_2.index t (1 : Fin 2) * 64 + 1 * (j 2).val = win0_3.index t (2 : Fin 3) * 64 + 1 * (j 2).val; omega
  unfold atEntry
  rw [hb]
  exact congrArg (· + _) (Finset.sum_congr rfl fun k _ => by rw [hp k, hw k])

/-- An index of the result is in point t's block iff each coordinate is in the block's range on its axis. -/
theorem mem_block (t : Fin cfg0.N) (i : S8x131072x64.Idx) :
    i ∈ ((cfg0.win 3).blk t).view.set ↔ ∀ a : Fin 3, win0_3.index t a * S1x16384x64.size a ≤ (i a).val ∧ (i a).val < win0_3.index t a * S1x16384x64.size a + S1x16384x64.size a := by
  show i ∈ ((View.whole main_v25).slice (win0_3.rect t)).set ↔ _
  rw [View.set_slice_whole, Rect.mem_set_unit]
  exact Iff.rfl

/-- The 64 blocks tile the result: (b, p, o) lies in the block of point 8·b + p / 16384. -/
theorem covered (i : S8x131072x64.Idx) : ∃ t : Fin cfg0.N, (cfg0.win 3).flush t = true ∧ i ∈ ((cfg0.win 3).blk t).view.set := by
  have hN : cfg0.N = 64 := N_0
  have h0 : (i 0).val < 8 := (i 0).isLt
  have h1 : (i 1).val < 131072 := (i 1).isLt
  have h2 : (i 2).val < 64 := (i 2).isLt
  let t : Fin cfg0.N := ⟨8 * (i 0).val + (i 1).val / 16384, by rw [hN]; omega⟩
  have ht : t.val = 8 * (i 0).val + (i 1).val / 16384 := rfl
  obtain ⟨-, -, -, -, -, -, -, -, q0, q1, q2⟩ := index_maps t
  refine ⟨t, flush0_3 t, ?_⟩
  rw [mem_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 16384 ≤ (i 1).val ∧ (i 1).val < win0_3.index t (1 : Fin 3) * 16384 + 16384; omega
  | ⟨2, _⟩ => show win0_3.index t (2 : Fin 3) * 64 ≤ (i 2).val ∧ (i 2).val < win0_3.index t (2 : Fin 3) * 64 + 64; omega

/-- THE RESULT ARRAY after the run. -/
theorem final (c : Dev nD) : (dats m 0 c).arrAt 3 cfg0.N = atEntry m c :=
  (dats m 0 c).arrAt_eq_of_cover 3 (atEntry m c) (fun t _ => flushed_eq m c t) covered

/-- The run, read: the result array at `atEntry`, the arguments unchanged. -/
theorem run : θ_run defs (onTc (τ := τ) (main (F := Ideal))) ⟨m, fun _ => 0, ρ⟩ fun r => ∀ c : Dev nD,
      r.2.mem ((c : Thread nD τ).loc main_v25) = atEntry m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Whole

end
-- ==== Proof.EntryArrays.lean ====
/-
  The arrays the kernel region is launched on, as values of the program's arguments.

  Before the region the program computes, on the host, the modulated weight (the style through the modulation
  layer, plus one, times the scaled weight, each output row then divided by its norm) and reshapes the bias to a
  row [1, 64]. The reference computes the modulated weight with the same operations and the same constants, so
  it is kept as ONE unopened term, the one the reference's reading names; nothing in this proof depends on what
  it is. The points are the first argument, untouched.
-/
import proofs.«174549_j34445637714446_1_alg».proof.Proof.Gen.KernelIdeal.Frame
import proofs.«174549_j34445637714446_1_alg».proof.Proof.Gen.ReferenceIdeal.Read
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxHeartbeats 2000000 in
/-- The weight window's array: the modulated weight of the style, the weight and the modulation's parameters. -/
theorem weight_eq (c : Dev nD) :
    (V m c main_v23 : S8x64x64.Idx → EReal)
      = Cert.ReferenceIdeal.Read.val_main_v23 (F := Ideal) (m ((c : Thread nD τ).loc main_arg1)) (m ((c : Thread nD τ).loc main_arg2))
          (m ((c : Thread nD τ).loc main_arg4)) (m ((c : Thread nD τ).loc main_arg5)) := by
  dsimp only [V, hostOps0]
  after_results_simp
  rfl

set_option maxHeartbeats 2000000 in
/-- The bias window's array: the bias as one row. -/
theorem biasRow_eq (c : Dev nD) :
    (V m c main_v24 : S1x64.Idx → EReal) = shapeCast S1x64 (m ((c : Thread nD τ).loc main_arg3)) shapeCasts_S64_S1x64 := by
  dsimp only [V, hostOps0]
  after_results_simp
  rfl

end Cert.KernelIdeal.Entry

end
-- ==== Proof.SampleProduct.lean ====
/-
  The function both programs compute, on the extended reals.

  There are 8 samples. Sample `b` has 131072 points `x[b, n, ·]` of 64 input channels, and its own weight
  `w[b, ·, ·]`: 64 output rows of 64 input channels. Each point is multiplied with every output row of its
  sample's weight, and one bias row, shared by all samples and points, is added:

      out[b, n, o] = (Σ_i x[b, n, i] · w[b, o, i]) + bias[o].

  The sum runs over the 64 input channels in one fixed enumeration; neither program's proof reorders it.
-/
import Idealize.ShloMosaic.PureOps.Ideal
import Idealize.ShloMosaic.Lib.ValueIdx

noncomputable section

namespace Cert.SampleProduct

open Idealize.ShloMosaic Idealize.ShloMosaic.ValueIdx

/-- The points: 8 samples of 131072 points of 64 channels. Also the result's shape. -/
abbrev Points : Shape := ⟨3, ![8, 131072, 64]⟩
/-- The per-sample weights: 8 samples of 64 output rows of 64 input channels. -/
abbrev Weights : Shape := ⟨3, ![8, 64, 64]⟩
/-- One row of 64 output channels. -/
abbrev Channels : Shape := ⟨1, ![64]⟩

/-- Every point times the transpose of its sample's weight, plus the bias row. -/
def out (x : FVec Ideal Points .f32) (w : FVec Ideal Weights .f32) (bias : FVec Ideal Channels .f32) :
    FVec Ideal Points .f32 :=
  fun i => (∑ k : Fin 64, x (ix3 (i 0) (i 1) k) * w (ix3 (i 0) (i 2) k)) + bias (ix1 (i 2))

/-- The same, read at explicit coordinates. -/
theorem out_apply (x : FVec Ideal Points .f32) (w : FVec Ideal Weights .f32) (bias : FVec Ideal Channels .f32)
    (b : Fin 8) (n : Fin 131072) (o : Fin 64) :
    out x w bias (ix3 b n o) = (∑ k : Fin 64, x (ix3 b n k) * w (ix3 b o k)) + bias (ix1 o) := rfl

end Cert.SampleProduct

end
-- ==== Proof.KernelResult.lean ====
/-
  The kernel's result as a function of the program's arguments.

  The region's result is the sample product over the arrays it is launched on. Those arrays are: the points, which
  are the first argument; the modulated weight, one term of the style, the weight and the modulation's parameters;
  and the bias as a row [1, 64], whose entry (0, o) is the bias at o. Substituted, the kernel's result is the sample
  product of the points, the modulated weight and the bias — the very term the reference's result is.
-/
import proofs.«174549_j34445637714446_1_alg».proof.Proof.KernelArray
import proofs.«174549_j34445637714446_1_alg».proof.Proof.EntryArrays
import proofs.«174549_j34445637714446_1_alg».proof.Proof.SampleProduct
import Idealize.ShloMosaic.Lib.ValueLayout

noncomputable section

namespace Cert.KernelIdeal.Result

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- The points, the modulated weight and the bias, read off the launch memory, at their literal shapes. -/
abbrev argPoints (c : Dev nD) : FVec Ideal S8x131072x64 .f32 := m ((c : Thread nD τ).loc main_arg0)
abbrev argWeight (c : Dev nD) : FVec Ideal S8x64x64 .f32 :=
  Cert.ReferenceIdeal.Read.val_main_v23 (F := Ideal) (m ((c : Thread nD τ).loc main_arg1)) (m ((c : Thread nD τ).loc main_arg2))
    (m ((c : Thread nD τ).loc main_arg4)) (m ((c : Thread nD τ).loc main_arg5))
abbrev argBias (c : Dev nD) : FVec Ideal S64 .f32 := m ((c : Thread nD τ).loc main_arg3)

/-- Their sample product. -/
abbrev ofArguments (c : Dev nD) : FVec Ideal S8x131072x64 .f32 :=
  Cert.SampleProduct.out (argPoints m c) (argWeight m c) (argBias m c)

/-- The bias row's entry (0, o) is the bias at o. -/
theorem biasRow_apply (c : Dev nD) (o : Fin 64) : Whole.biasRow m c (ix2 (0 : Fin 1) o) = argBias m c (ix1 o) := by
  have e : Whole.biasRow m c = shapeCast S1x64 (argBias m c) shapeCasts_S64_S1x64 := Entry.biasRow_eq m c
  rw [e]
  exact shapeCast_a_1a_apply (argBias m c) shapeCasts_S64_S1x64 (0 : Fin 1) o

/-- Over the arrays as launched the region computes the sample product of the arguments. -/
theorem atEntry_eq (c : Dev nD) : Whole.atEntry m c = ofArguments m c := by
  have hp : Whole.points m c = argPoints m c := V_main_arg0 m c
  have hw : Whole.weight m c = argWeight m c := Entry.weight_eq m c
  funext i
  obtain ⟨b, n, o, rfl⟩ : ∃ (b : Fin 8) (n : Fin 131072) (o : Fin 64), i = ix3 b n o := ⟨i 0, i 1, i 2, eq_ix3 i⟩
  show (∑ k : Fin 64, Whole.points m c (ix3 b n k) * Whole.weight m c (ix3 b o k)) + Whole.biasRow m c (ix2 (0 : Fin 1) o)
      = (∑ k : Fin 64, argPoints m c (ix3 b n k) * argWeight m c (ix3 b o k)) + argBias m c (ix1 o)
  rw [hp, hw, biasRow_apply]

/-- The kernel's run, read: its result array is the sample product of the arguments, which it leaves unchanged. -/
theorem run : θ_run defs (onTc (τ := τ) (main (F := Ideal))) ⟨m, fun _ => 0, ρ⟩ fun r => ∀ c : Dev nD,
      r.2.mem ((c : Thread nD τ).loc main_v25) = ofArguments m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (atEntry_eq m c), (h c).2⟩) (Whole.run m ρ)

end Cert.KernelIdeal.Result

end
-- ==== Proof.ReferenceAt.lean ====
/-
  The reference, read at an index, is the sample product.

  Its last three operations are a `dot_general` that batches over the sample axis and contracts the channel axis
  of the points with the input-channel axis of the modulated weight, a broadcast of the bias row over samples and
  points, and their sum. At an index (b, n, o) that is Σ_i x[b, n, i] · w[b, o, i] + bias[o], where w is the
  modulated weight, kept here as one unopened term of the style, the weight and the modulation's parameters.
-/
import proofs.«174549_j34445637714446_1_alg».proof.Proof.Gen.ReferenceIdeal.Read
import proofs.«174549_j34445637714446_1_alg».proof.Proof.SampleProduct

noncomputable section

namespace Cert.ReferenceIdeal.AtIndex

open Cert.ReferenceIdeal Cert.ReferenceIdeal.Read Idealize.ShloMosaic Idealize.ShloMosaic.ValueIdx

/-- The reference's result is the sample product of the points, the modulated weight and the bias. -/
theorem result_eq (x0 : FVec Ideal S8x131072x64 .f32) (x1 : FVec Ideal S8x256 .f32) (x2 : FVec Ideal S64x64 .f32)
    (x3 : FVec Ideal S64 .f32) (x4 : FVec Ideal S64x256 .f32) (x5 : FVec Ideal S64 .f32) :
    val_main_v27 (F := Ideal) x0 x1 x2 x3 x4 x5
      = Cert.SampleProduct.out x0 (val_main_v23 (F := Ideal) x1 x2 x4 x5) x3 := by
  funext i
  -- the points are read at (b, n, k), the weight at (b, o, k), the bias at o
  have el : ∀ k : Fin 64, lidx_main_v24 i k = ix3 (i 0) (i 1) k := fun k => funext fun a => Fin.ext (by
    match a with
    | ⟨0, _⟩ => rfl
    | ⟨1, _⟩ => rfl
    | ⟨2, _⟩ => rfl)
  have er : ∀ k : Fin 64, ridx_main_v24 i k = ix3 (i 0) (i 2) k := fun k => funext fun a => Fin.ext (by
    match a with
    | ⟨0, _⟩ => rfl
    | ⟨1, _⟩ => rfl
    | ⟨2, _⟩ => rfl)
  have eb : idx_main_v25 (idx_main_v26 i) = ix1 (i 2) := funext fun a => Fin.ext (by
    match a with
    | ⟨0, _⟩ => rfl)
  rw [val_main_v27_apply, val_main_v24_apply, val_main_v26_apply, val_main_v25_apply]
  simp only [el, er, eb]
  rfl

end Cert.ReferenceIdeal.AtIndex

end
-- ==== Proof.lean ====
/-
  The kernel and its reference compute the same function on the extended reals.

  Both programs first compute, with the same host operations and the same constants, the modulated weight
  w[b, o, i]: the style through the modulation layer, plus one, times the scaled weight, each output row divided
  by its norm. The kernel then multiplies, block of 16384 points by block, each point with the ROWS of its
  sample's weight — after narrowing both to a shorter float format, which on the extended reals is the identity —
  into a zero accumulator, and adds the bias row. The reference contracts the whole array of points with the
  weight in one batched product and adds the broadcast bias. At every index (b, n, o) both are

      Σ_i x[b, n, i] · w[b, o, i] + bias[o],

  the sum over the 64 input channels in the same enumeration, so no law of the extended reals beyond 0 + s = s
  (the zero accumulator) is needed, and the inputs' finiteness is never used.

  The modules: SampleProduct (the function), PayloadAt (the body's store at an index), EntryArrays (the arrays the
  region is launched on, as terms of the arguments), KernelArray (from the 64 blocks to the whole result array),
  KernelResult (the kernel's result as a function of the arguments), ReferenceAt (the reference at an index).
-/
import proofs.«174549_j34445637714446_1_alg».proof.Defs
import proofs.«174549_j34445637714446_1_alg».proof.Proof.Gen.Kernel
import proofs.«174549_j34445637714446_1_alg».proof.Proof.Gen.Kernel.Skeleton
import proofs.«174549_j34445637714446_1_alg».proof.Proof.Gen.Kernel.Launch
import proofs.«174549_j34445637714446_1_alg».proof.Proof.Gen.Kernel.Points
import proofs.«174549_j34445637714446_1_alg».proof.Proof.Gen.Kernel.Frame
import proofs.«174549_j34445637714446_1_alg».proof.Proof.Gen.KernelIdeal
import proofs.«174549_j34445637714446_1_alg».proof.Proof.Gen.KernelIdeal.Skeleton
import proofs.«174549_j34445637714446_1_alg».proof.Proof.Gen.KernelIdeal.Launch
import proofs.«174549_j34445637714446_1_alg».proof.Proof.Gen.KernelIdeal.Points
import proofs.«174549_j34445637714446_1_alg».proof.Proof.Gen.KernelIdeal.Frame
import proofs.«174549_j34445637714446_1_alg».proof.Proof.Gen.ReferenceIdeal
import proofs.«174549_j34445637714446_1_alg».proof.Proof.Gen.KernelIdeal.Value
import proofs.«174549_j34445637714446_1_alg».proof.Proof.Gen.ReferenceIdeal.Run
import proofs.«174549_j34445637714446_1_alg».proof.Proof.Gen.ReferenceIdeal.Read
import proofs.«174549_j34445637714446_1_alg».proof.Proof.Gen.Pre_finite_inputs
import proofs.«174549_j34445637714446_1_alg».proof.Proof.KernelResult
import proofs.«174549_j34445637714446_1_alg».proof.Proof.ReferenceAt
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does the kernel read on the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is host operations only: its run, with the result forgotten. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the six arguments, both programs end with the sample product of the points, the
    modulated weight and the bias in their result arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v27_eq, Cert.ReferenceIdeal.AtIndex.result_eq, a0, a1, a2, a3, a4, a5]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
